-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S4x1024x1024 .f32) (main_arg4 : FVec F S4x1024 .f32) (main_arg5 : FVec F S4x1024x1024 .f32) (main_arg6 : FVec F S4x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S4096x1024 : Shape := ⟨2, ![4096, 1024]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 15
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S1x4096, .f32⟩
  | .hbm, ⟨12, _⟩ => ⟨S1x4096, .f32⟩
  | .hbm, ⟨13, _⟩ => ⟨S16384x1024, .f32⟩
  | .hbm, ⟨14, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S1x4096, .f32⟩
  | .local _ .vmem, ⟨8, _⟩ => ⟨S4096x1024, .bf16⟩
  | .local _ .vmem, ⟨9, _⟩ => ⟨S1x4096, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S4x1024x1024_S4096x1024 : S4x1024x1024.ShapeCasts S4096x1024
  bitsLt_bf16_f32 : FTy.bits .bf16 < FTy.bits .f32
  shapeCasts_S4x1024_S1x4096 : S4x1024.ShapeCasts S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S16384x1024.size a
  hwx0_8 : ∀ i : grid0.Coords, EltTy.bits .f32 = 32 ∨ (Rect.block (s := S16384x1024) S256x1024.size (cc0_transform_8 i) (hinb0_8 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S16384x4x1024 : Shape := ⟨3, ![16384, 4, 1024]⟩
abbrev S1x4x1024 : Shape := ⟨3, ![1, 4, 1024]⟩
abbrev S16384x1x1024 : Shape := ⟨3, ![16384, 1, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S16384x4x1024, .f32⟩
  | .hbm, ⟨8, _⟩ => ⟨S1x4x1024, .f32⟩
  | .hbm, ⟨9, _⟩ => ⟨S16384x4x1024, .f32⟩
  | .hbm, ⟨10, _⟩ => ⟨S16384x4x1024, .f32⟩
  | .hbm, ⟨11, _⟩ => ⟨S16384x4x1024, .f32⟩
  | .hbm, ⟨12, _⟩ => ⟨S16384x4x1024, .f32⟩
  | .hbm, ⟨13, _⟩ => ⟨S1x4x1024, .f32⟩
  | .hbm, ⟨14, _⟩ => ⟨S16384x4x1024, .f32⟩
  | .hbm, ⟨15, _⟩ => ⟨S16384x4x1024, .f32⟩
  | .hbm, ⟨16, _⟩ => ⟨S16384x1x1024, .f32⟩
  | .hbm, ⟨17, _⟩ => ⟨S16384x1024, .f32⟩
  | .hbm, ⟨18, _⟩ => ⟨S16384x1024, .f32⟩
  | .hbm, ⟨19, _⟩ => ⟨S16384x1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S16384x4x1024_0_1_2 : S1x4x1024.BroadcastsInDim S16384x4x1024 (![0, 1, 2] : Fin 3 → Fin S16384x4x1024.rank)
  slices_S16384x4x1024_S16384x1x1024_0_0_0 : S16384x4x1024.Slices ![0, 0, 0] S16384x1x1024
  shapeCasts_S16384x1x1024_S16384x1024 : S16384x1x1024.ShapeCasts S16384x1024
  slices_S16384x4x1024_S16384x1x1024_0_1_0 : S16384x4x1024.Slices ![0, 1, 0] S16384x1x1024
  bcast_S_S16384x1024 : S_.BroadcastsInDim S16384x1024 (![] : Fin 0 → Fin S16384x1024.rank)
  slices_S16384x4x1024_S16384x1x1024_0_2_0 : S16384x4x1024.Slices ![0, 2, 0] S16384x1x1024
  slices_S16384x4x1024_S16384x1x1024_0_3_0 : S16384x4x1024.Slices ![0, 3, 0] S16384x1x1024
  dot_S16384x1024_S4x1024x1024_S16384x4x1024_1_2_0_01_n_n_wf : DotDims.WF S16384x1024 S4x1024x1024 S16384x4x1024 [1] [2] [0] [0, 1] [] []

variable [Facts₀]

def dot_S16384x1024_S4x1024x1024_S16384x4x1024_1_2_0_01_n_n : DotDims S16384x1024 S4x1024x1024 S16384x4x1024 where
  lhsContracting := [1]
  rhsContracting := [2]
  lhsNonContracting := [0]
  rhsNonContracting := [0, 1]
  lhsBatch := []
  rhsBatch := []
  wf := dot_S16384x1024_S4x1024x1024_S16384x4x1024_1_2_0_01_n_n_wf

class Facts : Prop extends Facts₀ where

variable [Facts]
-- ==== Proof.CellStep.lean ====
/-
  One step of a long short-term memory cell, as mathematics over the extended reals, free of any program.

  For a batch row `b`, a gate `g` (0 the candidate, 1 the input gate, 2 the forget gate, 3 the output gate) and a
  feature `k`, the pre-activation is
      pre b g k = Σᵢ x[b,i]·Wx[g,k,i] + Σⱼ h[b,j]·Rh[g,k,j] + bx[g,k] + bh[g,k].
  With σ(t) = 1 / (1 + e^{-t}) the new cell state and the new hidden state are
      c'[b,k] = σ(pre b 2 k)·c[b,k] + σ(pre b 1 k)·tanh(pre b 0 k),        h'[b,k] = σ(pre b 3 k)·tanh(c'[b,k]).
  Addition of extended reals is commutative and associative, so the order in which the four summands of `pre` are
  added does not matter (`pre_of_bias_between`): that is the one law between a program that adds both products before
  both biases and one that adds each bias right after its product. It needs no finiteness of anything.
-/
import Idealize.ShloMosaic.Lib.ValueIdx
import Idealize.ShloMosaic.Lib.IdealHost
import Idealize.ShloMosaic.PureOps.Ideal.Laws

noncomputable section

namespace Cert.CellStep

open Idealize.ShloMosaic Idealize.ShloMosaic.ValueIdx

/-- Batch rows by features: the inputs `x`, `h`, `c` and both results. -/
abbrev SRows : Shape := ⟨2, ![16384, 1024]⟩
/-- Gate by output feature by input feature: both weight arrays. -/
abbrev SWts : Shape := ⟨3, ![4, 1024, 1024]⟩
/-- Gate by feature: both bias arrays. -/
abbrev SBias : Shape := ⟨2, ![4, 1024]⟩

/-- The input product of row `b` with row `(g, k)` of a weight array. -/
def rowDot (x : FVec Ideal SRows .f32) (W : FVec Ideal SWts .f32) (b : Fin 16384) (g : Fin 4) (k : Fin 1024) : EReal :=
  ∑ i : Fin 1024, x (ix2 b i) * W (ix3 g k i)

/-- The pre-activation of gate `g` at row `b`, feature `k`: both products, then both biases. -/
def pre (x h : FVec Ideal SRows .f32) (Wx Rh : FVec Ideal SWts .f32) (bx bh : FVec Ideal SBias .f32)
    (b : Fin 16384) (g : Fin 4) (k : Fin 1024) : EReal :=
  rowDot x Wx b g k + rowDot h Rh b g k + bx (ix2 g k) + bh (ix2 g k)

/-- The same four summands with the first bias added between the two products. -/
theorem pre_of_bias_between (x h : FVec Ideal SRows .f32) (Wx Rh : FVec Ideal SWts .f32) (bx bh : FVec Ideal SBias .f32)
    (b : Fin 16384) (g : Fin 4) (k : Fin 1024) :
    rowDot x Wx b g k + bx (ix2 g k) + rowDot h Rh b g k + bh (ix2 g k) = pre x h Wx Rh bx bh b g k := by
  unfold pre
  rw [add_right_comm (rowDot x Wx b g k) (bx (ix2 g k)) (rowDot h Rh b g k)]

/-- The new cell state at row `b`, feature `k`: forget gate times old state plus input gate times candidate. -/
def cellNext (x h c : FVec Ideal SRows .f32) (Wx Rh : FVec Ideal SWts .f32) (bx bh : FVec Ideal SBias .f32)
    (b : Fin 16384) (k : Fin 1024) : EReal :=
  Ideal.logistic (pre x h Wx Rh bx bh b 2 k) * c (ix2 b k)
    + Ideal.logistic (pre x h Wx Rh bx bh b 1 k) * Ideal.tanh (pre x h Wx Rh bx bh b 0 k)

/-- The new hidden state at row `b`, feature `k`: output gate times the squashed new cell state. -/
def hiddenNext (x h c : FVec Ideal SRows .f32) (Wx Rh : FVec Ideal SWts .f32) (bx bh : FVec Ideal SBias .f32)
    (b : Fin 16384) (k : Fin 1024) : EReal :=
  Ideal.logistic (pre x h Wx Rh bx bh b 3 k) * Ideal.tanh (cellNext x h c Wx Rh bx bh b k)

/-- The whole new cell state array. -/
def cellArr (x h c : FVec Ideal SRows .f32) (Wx Rh : FVec Ideal SWts .f32) (bx bh : FVec Ideal SBias .f32) :
    FVec Ideal SRows .f32 := fun i => cellNext x h c Wx Rh bx bh (i 0) (i 1)

/-- The whole new hidden state array. -/
def hiddenArr (x h c : FVec Ideal SRows .f32) (Wx Rh : FVec Ideal SWts .f32) (bx bh : FVec Ideal SBias .f32) :
    FVec Ideal SRows .f32 := fun i => hiddenNext x h c Wx Rh bx bh (i 0) (i 1)

/-- The logistic function spelled with the word of the float one: `1 / (1 + e^{-t})` is `σ(t)` by definition once the
    word `0x3F800000` is read as the number one. -/
theorem one_div_one_add_exp_neg (t : EReal) :
    Ideal.div (Ideal.ofBits .f32 0x3F800000#32) (Ideal.ofBits .f32 0x3F800000#32 + Ideal.exp (-t)) = Ideal.logistic t := by
  rw [Ideal.ofBits_one_f32]
  rfl

end Cert.CellStep

end
-- ==== Proof.PlainCell.lean ====
/-
  The plain program computes the cell step of `CellStep`.

  It forms the pre-activations of all four gates at once, as an array indexed by (row, gate, feature): the product of
  `x` with the input weights, plus the input bias, plus the product of `h` with the recurrent weights, plus the
  recurrent bias. Read at (b, g, k) each product is the sum over the contracted feature, and each bias, broadcast over
  the rows, is its entry at (g, k); so the array at (b, g, k) is `pre b g k` with the first bias added between the two
  products (`pre_read`). Gate `g` is then the slice at `g` with the unit axis dropped: entry (b, k) of the slice
  sits at row-major position b·1024 + k, that is at (b, g, k) (`gate0` … `gate3`). The program spells the logistic
  function as 1 / (1 + e^{-t}) with the float one, which is σ(t). What remains is the same products and sums as in
  `cellNext` and `hiddenNext`.
-/
import proofs.«164644_j46420006535299_1_alg».proof.Proof.Gen.ReferenceIdeal.Read
import proofs.«164644_j46420006535299_1_alg».proof.Proof.CellStep

noncomputable section

namespace Cert.CellStep.Plain

open Idealize.ShloMosaic Idealize.ShloMosaic.ValueIdx Cert.ReferenceIdeal Cert.ReferenceIdeal.Read Cert.CellStep

variable (x0 x1 x2 : (⟨S16384x1024, .f32⟩ : BufTy).Contents (Elt Ideal))
  (x3 : (⟨S4x1024x1024, .f32⟩ : BufTy).Contents (Elt Ideal)) (x4 : (⟨S4x1024, .f32⟩ : BufTy).Contents (Elt Ideal))
  (x5 : (⟨S4x1024x1024, .f32⟩ : BufTy).Contents (Elt Ideal)) (x6 : (⟨S4x1024, .f32⟩ : BufTy).Contents (Elt Ideal))

/-! ## Where the products and the biases are read -/

theorem lidx_x (b : Fin 16384) (g : Fin 4) (k i : Fin 1024) : lidx_main_v0 (ix3 b g k) i = ix2 b i :=
  funext fun a => Fin.ext (by match a with | ⟨0, _⟩ => rfl | ⟨1, _⟩ => rfl)
theorem ridx_x (b : Fin 16384) (g : Fin 4) (k i : Fin 1024) : ridx_main_v0 (ix3 b g k) i = ix3 g k i :=
  funext fun a => Fin.ext (by match a with | ⟨0, _⟩ => rfl | ⟨1, _⟩ => rfl | ⟨2, _⟩ => rfl)
theorem lidx_h (b : Fin 16384) (g : Fin 4) (k i : Fin 1024) : lidx_main_v4 (ix3 b g k) i = ix2 b i :=
  funext fun a => Fin.ext (by match a with | ⟨0, _⟩ => rfl | ⟨1, _⟩ => rfl)
theorem ridx_h (b : Fin 16384) (g : Fin 4) (k i : Fin 1024) : ridx_main_v4 (ix3 b g k) i = ix3 g k i :=
  funext fun a => Fin.ext (by match a with | ⟨0, _⟩ => rfl | ⟨1, _⟩ => rfl | ⟨2, _⟩ => rfl)
theorem bidx_x (b : Fin 16384) (g : Fin 4) (k : Fin 1024) : idx_main_v1 (idx_main_v2 (ix3 b g k)) = ix2 g k :=
  funext fun a => Fin.ext (by match a with | ⟨0, _⟩ => rfl | ⟨1, _⟩ => rfl)
theorem bidx_h (b : Fin 16384) (g : Fin 4) (k : Fin 1024) : idx_main_v6 (idx_main_v7 (ix3 b g k)) = ix2 g k :=
  funext fun a => Fin.ext (by match a with | ⟨0, _⟩ => rfl | ⟨1, _⟩ => rfl)

/-- The array of all pre-activations at (b, g, k). -/
theorem pre_read (b : Fin 16384) (g : Fin 4) (k : Fin 1024) :
    val_main_v8 (F := Ideal) x0 x1 x3 x4 x5 x6 (ix3 b g k) = pre x0 x1 x3 x5 x4 x6 b g k := by
  rw [val_main_v8_apply, val_main_v5_apply, val_main_v3_apply, val_main_v0_apply, val_main_v2_apply, val_main_v1_apply,
    val_main_v4_apply, val_main_v7_apply, val_main_v6_apply]
  simp only [lidx_x, ridx_x, lidx_h, ridx_h, bidx_x, bidx_h]
  exact pre_of_bias_between x0 x1 x3 x5 x4 x6 b g k

/-! ## The four gates: a slice of the gate axis, its unit axis dropped -/

theorem gate0 (b : Fin 16384) (k : Fin 1024) :
    val_main_v10 (F := Ideal) x0 x1 x3 x4 x5 x6 (ix2 b k) = pre x0 x1 x3 x5 x4 x6 b 0 k := by
  rw [val_main_v10_apply, val_main_v9_apply]
  have e : idx_main_v9 (idx_main_v10 (ix2 b k)) = ix3 b (0 : Fin 4) k := funext fun a => Fin.ext (by
    have hb := b.isLt; have hk := k.isLt
    match a with
    | ⟨0, _⟩ => show (b.val * 1024 + k.val) / 1024 = b.val; omega
    | ⟨1, _⟩ => rfl
    | ⟨2, _⟩ => show (b.val * 1024 + k.val) % 1024 = k.val; omega)
  rw [e]; exact pre_read x0 x1 x3 x4 x5 x6 b 0 k

theorem gate1 (b : Fin 16384) (k : Fin 1024) :
    val_main_v13 (F := Ideal) x0 x1 x3 x4 x5 x6 (ix2 b k) = pre x0 x1 x3 x5 x4 x6 b 1 k := by
  rw [val_main_v13_apply, val_main_v12_apply]
  have e : idx_main_v12 (idx_main_v13 (ix2 b k)) = ix3 b (1 : Fin 4) k := funext fun a => Fin.ext (by
    have hb := b.isLt; have hk := k.isLt
    match a with
    | ⟨0, _⟩ => show (b.val * 1024 + k.val) / 1024 = b.val; omega
    | ⟨1, _⟩ => rfl
    | ⟨2, _⟩ => show (b.val * 1024 + k.val) % 1024 = k.val; omega)
  rw [e]; exact pre_read x0 x1 x3 x4 x5 x6 b 1 k

theorem gate2 (b : Fin 16384) (k : Fin 1024) :
    val_main_v21 (F := Ideal) x0 x1 x3 x4 x5 x6 (ix2 b k) = pre x0 x1 x3 x5 x4 x6 b 2 k := by
  rw [val_main_v21_apply, val_main_v20_apply]
  have e : idx_main_v20 (idx_main_v21 (ix2 b k)) = ix3 b (2 : Fin 4) k := funext fun a => Fin.ext (by
    have hb := b.isLt; have hk := k.isLt
    match a with
    | ⟨0, _⟩ => show (b.val * 1024 + k.val) / 1024 = b.val; omega
    | ⟨1, _⟩ => rfl
    | ⟨2, _⟩ => show (b.val * 1024 + k.val) % 1024 = k.val; omega)
  rw [e]; exact pre_read x0 x1 x3 x4 x5 x6 b 2 k

theorem gate3 (b : Fin 16384) (k : Fin 1024) :
    val_main_v29 (F := Ideal) x0 x1 x3 x4 x5 x6 (ix2 b k) = pre x0 x1 x3 x5 x4 x6 b 3 k := by
  rw [val_main_v29_apply, val_main_v28_apply]
  have e : idx_main_v28 (idx_main_v29 (ix2 b k)) = ix3 b (3 : Fin 4) k := funext fun a => Fin.ext (by
    have hb := b.isLt; have hk := k.isLt
    match a with
    | ⟨0, _⟩ => show (b.val * 1024 + k.val) / 1024 = b.val; omega
    | ⟨1, _⟩ => rfl
    | ⟨2, _⟩ => show (b.val * 1024 + k.val) % 1024 = k.val; omega)
  rw [e]; exact pre_read x0 x1 x3 x4 x5 x6 b 3 k

/-! ## The activations -/

/-- The candidate: tanh of gate 0. -/
theorem cand_read (b : Fin 16384) (k : Fin 1024) :
    val_main_v11 (F := Ideal) x0 x1 x3 x4 x5 x6 (ix2 b k) = Ideal.tanh (pre x0 x1 x3 x5 x4 x6 b 0 k) := by
  rw [val_main_v11_apply, gate0]; rfl

/-- The input gate: 1 / (1 + e^{-t}) at gate 1. -/
theorem input_read (b : Fin 16384) (k : Fin 1024) :
    val_main_v19 (F := Ideal) x0 x1 x3 x4 x5 x6 (ix2 b k) = Ideal.logistic (pre x0 x1 x3 x5 x4 x6 b 1 k) := by
  rw [val_main_v19_apply, val_main_v18_apply, val_main_cst_0_apply, val_main_v17_apply, val_main_v16_apply,
    val_main_cst_apply, val_main_v15_apply, val_main_v14_apply, gate1]
  exact one_div_one_add_exp_neg _

/-- The forget gate: 1 / (1 + e^{-t}) at gate 2. -/
theorem forget_read (b : Fin 16384) (k : Fin 1024) :
    val_main_v27 (F := Ideal) x0 x1 x3 x4 x5 x6 (ix2 b k) = Ideal.logistic (pre x0 x1 x3 x5 x4 x6 b 2 k) := by
  rw [val_main_v27_apply, val_main_v26_apply, val_main_cst_2_apply, val_main_v25_apply, val_main_v24_apply,
    val_main_cst_1_apply, val_main_v23_apply, val_main_v22_apply, gate2]
  exact one_div_one_add_exp_neg _

/-- The output gate: 1 / (1 + e^{-t}) at gate 3. -/
theorem output_read (b : Fin 16384) (k : Fin 1024) :
    val_main_v35 (F := Ideal) x0 x1 x3 x4 x5 x6 (ix2 b k) = Ideal.logistic (pre x0 x1 x3 x5 x4 x6 b 3 k) := by
  rw [val_main_v35_apply, val_main_v34_apply, val_main_cst_4_apply, val_main_v33_apply, val_main_v32_apply,
    val_main_cst_3_apply, val_main_v31_apply, val_main_v30_apply, gate3]
  exact one_div_one_add_exp_neg _

/-! ## The two results -/

/-- The plain program's second result is the new cell state. -/
theorem cell_eq : val_main_v38 (F := Ideal) x0 x1 x2 x3 x4 x5 x6 = cellArr x0 x1 x2 x3 x5 x4 x6 := by
  funext i
  obtain ⟨b, k, rfl⟩ : ∃ (b : Fin 16384) (k : Fin 1024), i = ix2 b k := ⟨i 0, i 1, eq_ix2 i⟩
  rw [val_main_v38_apply, val_main_v36_apply, val_main_v37_apply, forget_read, input_read, cand_read]
  rfl

/-- The plain program's first result is the new hidden state. -/
theorem hidden_eq : val_main_v40 (F := Ideal) x0 x1 x2 x3 x4 x5 x6 = hiddenArr x0 x1 x2 x3 x5 x4 x6 := by
  funext i
  obtain ⟨b, k, rfl⟩ : ∃ (b : Fin 16384) (k : Fin 1024), i = ix2 b k := ⟨i 0, i 1, eq_ix2 i⟩
  rw [val_main_v40_apply, val_main_v39_apply, output_read, cell_eq]
  rfl

end Cert.CellStep.Plain

end
-- ==== Proof.TileCell.lean ====
/-
  One tile of the tiled program computes the cell step of `CellStep` on its 256 rows.

  The tiled program keeps both weight arrays flattened to 4096 rows — row g·1024 + k is row (g, k) — and both biases as
  one row of 4096. On a tile of 256 rows of `x` and `h` it forms, by two products contracted over the feature axis of
  BOTH operands (each tile row against each weight row) accumulated into zeros, plus the two bias rows broadcast over the
  tile, a 256 × 4096 array whose entry (p, n) is
      Σᵢ x[p,i]·Wx[n,i] + Σᵢ h[p,i]·Rh[n,i] + bx[n] + bh[n]                          (`preTile`, `pay1_apply`).
  The four gates are the four column bands of width 1024: column g·1024 + q of the tile is gate g at feature q (`col`).
  So when tile row p is array row `row p` and the flattened arrays hold the unflattened entries (the hypotheses below),
  entry (p, g·1024 + q) is `pre (row p) g q` (`preTile_eq_pre`), and the two blocks the tile leaves are `cellNext` and
  `hiddenNext` at (`row p`, q) (`cell_tile`, `hidden_tile`). Narrowing to bf16 is the identity on extended reals.
-/
import proofs.«164644_j46420006535299_1_alg».proof.Proof.Gen.KernelIdeal.Value
import proofs.«164644_j46420006535299_1_alg».proof.Proof.CellStep
import Idealize.ShloMosaic.Lib.ValueIdx
import Idealize.ShloMosaic.Lib.ValueLayout
import Idealize.ShloMosaic.Lib.Pipeline.Value
import Idealize.ShloMosaic.PureOps.Ideal.Laws

noncomputable section

namespace Cert.CellStep.Tile

open Idealize.ShloMosaic Idealize.ShloMosaic.ValueIdx Cert.KernelIdeal Cert.KernelIdeal.Gen Cert.CellStep

/-! ## The product of a tile row with a weight row -/

theorem lhs_row (i : S256x4096.Idx) (q : dot_S256x1024_S4096x1024_S256x4096_1_1_0_0_n_n.contr.Idx) :
    (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl
theorem lhs_col (i : S256x4096.Idx) (q : dot_S256x1024_S4096x1024_S256x4096_1_1_0_0_n_n.contr.Idx) :
    (dot_S256x1024_S4096x1024_S256x4096_1_1_0_0_n_n.lhsIdx i q 1).val = (q ⟨0, by decide⟩).val :=
  dot_S256x1024_S4096x1024_S256x4096_1_1_0_0_n_n.lhsIdx_val_of_single rfl i q
theorem rhs_row (i : S256x4096.Idx) (q : dot_S256x1024_S4096x1024_S256x4096_1_1_0_0_n_n.contr.Idx) :
    (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl
theorem rhs_col (i : S256x4096.Idx) (q : dot_S256x1024_S4096x1024_S256x4096_1_1_0_0_n_n.contr.Idx) :
    (dot_S256x1024_S4096x1024_S256x4096_1_1_0_0_n_n.rhsIdx i q 1).val = (q ⟨0, by decide⟩).val :=
  dot_S256x1024_S4096x1024_S256x4096_1_1_0_0_n_n.rhsIdx_val_of_single rfl i q

/-- The matrix unit's product into zeros at (p, n): tile row p against weight row n, summed over the feature. -/
theorem tile_dot (xb : FVec Ideal S256x1024 .bf16) (w : FVec Ideal S4096x1024 .bf16) (p : Fin 256) (n : Fin 4096) :
    matmul dot_S256x1024_S4096x1024_S256x4096_1_1_0_0_n_n none xb w (constant (F := Ideal) S256x4096 .f32 0x00000000#32) (ix2 p n)
      = ∑ i : Fin 1024, xb (ix2 p i) * w (ix2 n i) := by
  simp only [matmul]
  rw [Ideal.matmul_constant_zero_apply, ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p n) ((contrEquiv1 dot_S256x1024_S4096x1024_S256x4096_1_1_0_0_n_n 1024 rfl rfl).symm k) = ix2 p k := funext fun a => Fin.ext (by
    match a with
    | ⟨0, _⟩ => exact lhs_row _ _
    | ⟨1, _⟩ => exact (lhs_col _ _).trans hk)
  have er : dot_S256x1024_S4096x1024_S256x4096_1_1_0_0_n_n.rhsIdx (ix2 p n) ((contrEquiv1 dot_S256x1024_S4096x1024_S256x4096_1_1_0_0_n_n 1024 rfl rfl).symm k) = ix2 n k := funext fun a => Fin.ext (by
    match a with
    | ⟨0, _⟩ => exact rhs_row _ _
    | ⟨1, _⟩ => exact (rhs_col _ _).trans hk)
  rw [el, er]

/-! ## The tile of pre-activations -/

/-- Entry (p, n) of the tile of pre-activations: both products, then both bias rows. -/
def preTile (xb hb : FVec Ideal S256x1024 .f32) (w r : FVec Ideal S4096x1024 .bf16) (bx2 bh2 : FVec Ideal S1x4096 .f32)
    (p : Fin 256) (n : Fin 4096) : EReal :=
  (∑ i : Fin 1024, xb (ix2 p i) * w (ix2 n i)) + (∑ i : Fin 1024, hb (ix2 p i) * r (ix2 n i))
    + bx2 (ix2 (0 : Fin 1) n) + bh2 (ix2 (0 : Fin 1) n)

/-- The body's first computed value, read at (p, n). -/
theorem pay1_apply (xb hb : FVec Ideal S256x1024 .f32) (w r : FVec Ideal S4096x1024 .bf16) (bx2 bh2 : FVec Ideal S1x4096 .f32)
    (p : Fin 256) (n : Fin 4096) :
    k0_pay1 (F := Ideal) xb hb w r bx2 bh2 (ix2 p n) = preTile xb hb w r bx2 bh2 p n := by
  have tree : k0_pay1 (F := Ideal) xb hb w r bx2 bh2
      = addf (addf (addf
          (matmul dot_S256x1024_S4096x1024_S256x4096_1_1_0_0_n_n none (truncf .bf16 xb Facts₀.bitsLt_bf16_f32) (shapeCast S4096x1024 w Facts₀.shapeCasts_S4096x1024_S4096x1024) (constant (F := Ideal) S256x4096 .f32 0x00000000#32))
          (matmul dot_S256x1024_S4096x1024_S256x4096_1_1_0_0_n_n none (truncf .bf16 hb Facts₀.bitsLt_bf16_f32) (shapeCast S4096x1024 r Facts₀.shapeCasts_S4096x1024_S4096x1024) (constant (F := Ideal) S256x4096 .f32 0x00000000#32)))
          (broadcastTo S256x4096 (shapeCast S1x4096 bx2 Facts₀.shapeCasts_S1x4096_S1x4096) Facts₀.broadcasts_S1x4096_S256x4096))
          (broadcastTo S256x4096 (shapeCast S1x4096 bh2 Facts₀.shapeCasts_S1x4096_S1x4096) Facts₀.broadcasts_S1x4096_S256x4096) := rfl
  rw [tree, shapeCast_self w, shapeCast_self r, shapeCast_self bx2, shapeCast_self bh2, addf_apply, addf_apply, addf_apply,
    tile_dot, tile_dot, broadcastTo_1b_ab_apply, broadcastTo_1b_ab_apply]
  rfl

/-! ## Column bands are gates -/

/-- Column g·1024 + q of the tile: gate `g` at feature `q`. -/
def col (g : Fin 4) (q : Fin 1024) : Fin 4096 := ⟨q.val + g.val * 1024, by have := g.isLt; have := q.isLt; omega⟩

/-- Where tile row p is array row `row p` and the flattened weights and biases hold the unflattened entries, the tile's
    entry at (p, gate g's column q) is the pre-activation of gate g at (`row p`, q). -/
theorem preTile_eq_pre
    (xb hb : FVec Ideal S256x1024 .f32) (w r : FVec Ideal S4096x1024 .bf16) (bx2 bh2 : FVec Ideal S1x4096 .f32)
    (x h : FVec Ideal SRows .f32) (Wx Rh : FVec Ideal SWts .f32) (bx bh : FVec Ideal SBias .f32) (row : Fin 256 → Fin 16384)
    (hx : ∀ p i, xb (ix2 p i) = x (ix2 (row p) i)) (hh : ∀ p i, hb (ix2 p i) = h (ix2 (row p) i))
    (hw : ∀ g k i, w (ix2 (col g k) i) = Wx (ix3 g k i)) (hr : ∀ g k i, r (ix2 (col g k) i) = Rh (ix3 g k i))
    (hbx : ∀ g k, bx2 (ix2 (0 : Fin 1) (col g k)) = bx (ix2 g k)) (hbh : ∀ g k, bh2 (ix2 (0 : Fin 1) (col g k)) = bh (ix2 g k))
    (p : Fin 256) (g : Fin 4) (q : Fin 1024) :
    preTile xb hb w r bx2 bh2 p (col g q) = pre x h Wx Rh bx bh (row p) g q := by
  unfold preTile pre rowDot
  rw [hbx, hbh]
  congr 2
  · congr 1
    · exact Finset.sum_congr rfl fun i _ => by rw [hx, hw]
    · exact Finset.sum_congr rfl fun i _ => by rw [hh, hr]

/-! ## The two blocks a tile leaves -/

section Blocks
variable (xb hb cb : FVec Ideal S256x1024 .f32) (w r : FVec Ideal S4096x1024 .bf16) (bx2 bh2 : FVec Ideal S1x4096 .f32)
  (x h c : FVec Ideal SRows .f32) (Wx Rh : FVec Ideal SWts .f32) (bx bh : FVec Ideal SBias .f32) (row : Fin 256 → Fin 16384)
  (hx : ∀ p i, xb (ix2 p i) = x (ix2 (row p) i)) (hh : ∀ p i, hb (ix2 p i) = h (ix2 (row p) i))
  (hc : ∀ p q, cb (ix2 p q) = c (ix2 (row p) q))
  (hw : ∀ g k i, w (ix2 (col g k) i) = Wx (ix3 g k i)) (hr : ∀ g k i, r (ix2 (col g k) i) = Rh (ix3 g k i))
  (hbx : ∀ g k, bx2 (ix2 (0 : Fin 1) (col g k)) = bx (ix2 g k)) (hbh : ∀ g k, bh2 (ix2 (0 : Fin 1) (col g k)) = bh (ix2 g k))

include hx hh hc hw hr hbx hbh

/-- The block left for the new cell state, at (p, q). -/
theorem cell_tile (p : Fin 256) (q : Fin 1024) :
    Cert.KernelIdeal.Value.E8 (F := Ideal) xb hb w r bx2 bh2 cb (ix2 p q) = cellNext x h c Wx Rh bx bh (row p) q := by
  have e0 : Cert.KernelIdeal.Value.ix8_0 (ix2 p q) = ix2 p (col 2 q) := funext fun a => Fin.ext (by match a with | ⟨0, _⟩ => rfl | ⟨1, _⟩ => rfl)
  have e1 : Cert.KernelIdeal.Value.ix8_1 (ix2 p q) = ix2 p q := funext fun a => Fin.ext (by match a with | ⟨0, _⟩ => rfl | ⟨1, _⟩ => rfl)
  have e2 : Cert.KernelIdeal.Value.ix8_2 (ix2 p q) = ix2 p (col 1 q) := funext fun a => Fin.ext (by match a with | ⟨0, _⟩ => rfl | ⟨1, _⟩ => rfl)
  have e3 : Cert.KernelIdeal.Value.ix8_3 (ix2 p q) = ix2 p (col 0 q) := funext fun a => Fin.ext (by match a with | ⟨0, _⟩ => rfl | ⟨1, _⟩ => rfl)
  show FloatOps.addf (FloatOps.mulf (FloatOps.logistic (k0_pay1 (F := Ideal) xb hb w r bx2 bh2 (Cert.KernelIdeal.Value.ix8_0 (ix2 p q)))) (cb (Cert.KernelIdeal.Value.ix8_1 (ix2 p q))))
      (FloatOps.mulf (FloatOps.logistic (k0_pay1 (F := Ideal) xb hb w r bx2 bh2 (Cert.KernelIdeal.Value.ix8_2 (ix2 p q)))) (FloatOps.tanh (k0_pay1 (F := Ideal) xb hb w r bx2 bh2 (Cert.KernelIdeal.Value.ix8_3 (ix2 p q))))) = _
  rw [e0, e1, e2, e3, pay1_apply, pay1_apply, pay1_apply,
    preTile_eq_pre xb hb w r bx2 bh2 x h Wx Rh bx bh row hx hh hw hr hbx hbh p 2 q,
    preTile_eq_pre xb hb w r bx2 bh2 x h Wx Rh bx bh row hx hh hw hr hbx hbh p 1 q,
    preTile_eq_pre xb hb w r bx2 bh2 x h Wx Rh bx bh row hx hh hw hr hbx hbh p 0 q, hc]
  rfl

/-- The block left for the new hidden state, at (p, q). -/
theorem hidden_tile (p : Fin 256) (q : Fin 1024) :
    Cert.KernelIdeal.Value.E7 (F := Ideal) xb hb w r bx2 bh2 cb (ix2 p q) = hiddenNext x h c Wx Rh bx bh (row p) q := by
  have e0 : Cert.KernelIdeal.Value.ix7_0 (ix2 p q) = ix2 p (col 3 q) := funext fun a => Fin.ext (by match a with | ⟨0, _⟩ => rfl | ⟨1, _⟩ => rfl)
  have e1 : Cert.KernelIdeal.Value.ix7_1 (ix2 p q) = ix2 p (col 2 q) := funext fun a => Fin.ext (by match a with | ⟨0, _⟩ => rfl | ⟨1, _⟩ => rfl)
  have e2 : Cert.KernelIdeal.Value.ix7_2 (ix2 p q) = ix2 p q := funext fun a => Fin.ext (by match a with | ⟨0, _⟩ => rfl | ⟨1, _⟩ => rfl)
  have e3 : Cert.KernelIdeal.Value.ix7_3 (ix2 p q) = ix2 p (col 1 q) := funext fun a => Fin.ext (by match a with | ⟨0, _⟩ => rfl | ⟨1, _⟩ => rfl)
  have e4 : Cert.KernelIdeal.Value.ix7_4 (ix2 p q) = ix2 p (col 0 q) := funext fun a => Fin.ext (by match a with | ⟨0, _⟩ => rfl | ⟨1, _⟩ => rfl)
  show FloatOps.mulf (FloatOps.logistic (k0_pay1 (F := Ideal) xb hb w r bx2 bh2 (Cert.KernelIdeal.Value.ix7_0 (ix2 p q))))
      (FloatOps.tanh (FloatOps.addf (FloatOps.mulf (FloatOps.logistic (k0_pay1 (F := Ideal) xb hb w r bx2 bh2 (Cert.KernelIdeal.Value.ix7_1 (ix2 p q)))) (cb (Cert.KernelIdeal.Value.ix7_2 (ix2 p q))))
        (FloatOps.mulf (FloatOps.logistic (k0_pay1 (F := Ideal) xb hb w r bx2 bh2 (Cert.KernelIdeal.Value.ix7_3 (ix2 p q)))) (FloatOps.tanh (k0_pay1 (F := Ideal) xb hb w r bx2 bh2 (Cert.KernelIdeal.Value.ix7_4 (ix2 p q))))))) = _
  rw [e0, e1, e2, e3, e4, pay1_apply, pay1_apply, pay1_apply, pay1_apply,
    preTile_eq_pre xb hb w r bx2 bh2 x h Wx Rh bx bh row hx hh hw hr hbx hbh p 3 q,
    preTile_eq_pre xb hb w r bx2 bh2 x h Wx Rh bx bh row hx hh hw hr hbx hbh p 2 q,
    preTile_eq_pre xb hb w r bx2 bh2 x h Wx Rh bx bh row hx hh hw hr hbx hbh p 1 q,
    preTile_eq_pre xb hb w r bx2 bh2 x h Wx Rh bx bh row hx hh hw hr hbx hbh p 0 q, hc]
  rfl

end Blocks

end Cert.CellStep.Tile

end
-- ==== Proof.TiledCell.lean ====
/-
  From tiles to whole arrays: the tiled program leaves the cell step of `CellStep` in its two result arrays.

  The grid has 64 points; point t works on rows t·256 … t·256 + 255 of `x`, `h`, `c` and of both results (their block
  index is (t, 0)), while the flattened weights and the bias rows are one whole block, the same at every point (block
  index (0, 0)). Before the grid runs, the weights are flattened from gate × feature × feature to 4096 × feature and
  narrowed, and the biases from gate × feature to one row of 4096: entry (g·1024 + k, i) of a flattened weight array is
  entry (g, k, i) of the argument, and entry (0, g·1024 + k) of a bias row is entry (g, k) of the argument, because a
  reshape keeps the row-major position (`wx_apply` … `bh_apply`); narrowing is the identity on extended reals.
  So at point t the tile's inputs satisfy the hypotheses of `Tile.cell_tile` and `Tile.hidden_tile` with
  `row p = t·256 + p`, and what point t writes back is block t of the whole arrays `cellArr` and `hiddenArr` of the
  arguments (`flushed_cell`, `flushed_hidden`). Row b lies in the block of point b / 256, so the 64 blocks cover the
  results (`cover_cell`, `cover_hidden`), which therefore end holding exactly those arrays (`run`).
-/
import proofs.«164644_j46420006535299_1_alg».proof.Proof.Gen.KernelIdeal.Value
import proofs.«164644_j46420006535299_1_alg».proof.Proof.TileCell
import Idealize.ShloMosaic.Lib.StableHlo.Run
import Idealize.ShloMosaic.Lib.ValueIdx
import Idealize.ShloMosaic.Lib.Pipeline.Value

noncomputable section

namespace Cert.CellStep.Tiled

open Idealize.ShloMosaic Idealize.ShloMosaic.ValueIdx Idealize.ShloMosaic.TcCoe Idealize.SL.Sem
open Cert.KernelIdeal Cert.KernelIdeal.Gen Cert.CellStep Cert.CellStep.Tile
open Idealize.ShloMosaic.Pipeline (Dat)

variable (m : (ℓ : Loc nD τ sig) → Buf (Elt Ideal) ℓ) (ρ : Dev nD → PrngReg)

/-! ## The arguments, and the two arrays the results are to hold -/

abbrev argX (c : Dev nD) : FVec Ideal SRows .f32 := m ((c : Thread nD τ).loc main_arg0)
abbrev argH (c : Dev nD) : FVec Ideal SRows .f32 := m ((c : Thread nD τ).loc main_arg1)
abbrev argC (c : Dev nD) : FVec Ideal SRows .f32 := m ((c : Thread nD τ).loc main_arg2)
abbrev argWx (c : Dev nD) : FVec Ideal SWts .f32 := m ((c : Thread nD τ).loc main_arg3)
abbrev argBx (c : Dev nD) : FVec Ideal SBias .f32 := m ((c : Thread nD τ).loc main_arg4)
abbrev argRh (c : Dev nD) : FVec Ideal SWts .f32 := m ((c : Thread nD τ).loc main_arg5)
abbrev argBh (c : Dev nD) : FVec Ideal SBias .f32 := m ((c : Thread nD τ).loc main_arg6)

/-- The new cell state of the arguments. -/
def cellG (c : Dev nD) : FVec Ideal SRows .f32 :=
  cellArr (argX m c) (argH m c) (argC m c) (argWx m c) (argRh m c) (argBx m c) (argBh m c)
/-- The new hidden state of the arguments. -/
def hiddenG (c : Dev nD) : FVec Ideal SRows .f32 :=
  hiddenArr (argX m c) (argH m c) (argC m c) (argWx m c) (argRh m c) (argBx m c) (argBh m c)

/-! ## The flattened operands, as the grid finds them -/

theorem V_wx (c : Dev nD) : (V m c main_v1 : S4096x1024.Idx → EReal)
    = truncf (F := Ideal) .bf16 (shapeCast S4096x1024 (m ((c : Thread nD τ).loc main_arg3)) Facts₀.shapeCasts_S4x1024x1024_S4096x1024) Facts₀.bitsLt_bf16_f32 := by
  dsimp only [Gen.V, Gen.hostOps0]; after_results; rfl
theorem V_rh (c : Dev nD) : (V m c main_v3 : S4096x1024.Idx → EReal)
    = truncf (F := Ideal) .bf16 (shapeCast S4096x1024 (m ((c : Thread nD τ).loc main_arg5)) Facts₀.shapeCasts_S4x1024x1024_S4096x1024) Facts₀.bitsLt_bf16_f32 := by
  dsimp only [Gen.V, Gen.hostOps0]; after_results; rfl
theorem V_bx (c : Dev nD) : (V m c main_v4 : S1x4096.Idx → EReal)
    = shapeCast S1x4096 (m ((c : Thread nD τ).loc main_arg4)) Facts₀.shapeCasts_S4x1024_S1x4096 := by
  dsimp only [Gen.V, Gen.hostOps0]; after_results; rfl
theorem V_bh (c : Dev nD) : (V m c main_v5 : S1x4096.Idx → EReal)
    = shapeCast S1x4096 (m ((c : Thread nD τ).loc main_arg6)) Facts₀.shapeCasts_S4x1024_S1x4096 := by
  dsimp only [Gen.V, Gen.hostOps0]; after_results; rfl

/-- Flattening gate × feature × feature keeps the row-major position: (g·1024 + k, i) holds (g, k, i). -/
theorem flat_wts (W : FVec Ideal SWts .f32) (hs : S4x1024x1024.ShapeCasts S4096x1024) (g : Fin 4) (k i : Fin 1024) :
    shapeCast S4096x1024 W hs (ix2 (col g k) i) = W (ix3 g k i) :=
  shapeCast_apply W hs (ix2 (col g k) i) (ix3 g k i) (by
    rewrite [Shape.rowMajor_val_three, Shape.rowMajor_val_two]
    show (g.val * 1024 + k.val) * 1024 + i.val = (k.val + g.val * 1024) * 1024 + i.val
    omega)
/-- Flattening gate × feature to one row keeps the row-major position: (0, g·1024 + k) holds (g, k). -/
theorem flat_bias (B : FVec Ideal SBias .f32) (hs : S4x1024.ShapeCasts S1x4096) (g : Fin 4) (k : Fin 1024) :
    shapeCast S1x4096 B hs (ix2 (0 : Fin 1) (col g k)) = B (ix2 g k) :=
  shapeCast_apply B hs (ix2 (0 : Fin 1) (col g k)) (ix2 g k) (by
    rewrite [Shape.rowMajor_val_two, Shape.rowMajor_val_two]
    show g.val * 1024 + k.val = 0 * 4096 + (k.val + g.val * 1024)
    omega)

theorem wx_apply (c : Dev nD) (g : Fin 4) (k i : Fin 1024) :
    (V m c main_v1 : S4096x1024.Idx → EReal) (ix2 (col g k) i) = argWx m c (ix3 g k i) := by
  rw [V_wx]; exact flat_wts (argWx m c) _ g k i
theorem rh_apply (c : Dev nD) (g : Fin 4) (k i : Fin 1024) :
    (V m c main_v3 : S4096x1024.Idx → EReal) (ix2 (col g k) i) = argRh m c (ix3 g k i) := by
  rw [V_rh]; exact flat_wts (argRh m c) _ g k i
theorem bx_apply (c : Dev nD) (g : Fin 4) (k : Fin 1024) :
    (V m c main_v4 : S1x4096.Idx → EReal) (ix2 (0 : Fin 1) (col g k)) = argBx m c (ix2 g k) := by
  rw [V_bx]; exact flat_bias (argBx m c) _ g k
theorem bh_apply (c : Dev nD) (g : Fin 4) (k : Fin 1024) :
    (V m c main_v5 : S1x4096.Idx → EReal) (ix2 (0 : Fin 1) (col g k)) = argBh m c (ix2 g k) := by
  rw [V_bh]; exact flat_bias (argBh m c) _ g k

/-! ## The index maps, decided over the 64 points -/

/-- The row-tiled windows sit at block (t, 0); the resident ones at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 64 := lt_of_lt_of_eq t.isLt N_0

/-- Tile row p of point t is array row t·256 + p. -/
def rowOf (t : Fin cfg0.N) (p : Fin 256) : Fin 16384 := ⟨t.val * 256 + p.val, by have := point_lt t; have := p.isLt; omega⟩

/-! ## The blocks a point reads -/

abbrev xblk (c : Dev nD) (t : Fin cfg0.N) : FVec Ideal S256x1024 .f32 := iblk m c 0 t
abbrev hblk (c : Dev nD) (t : Fin cfg0.N) : FVec Ideal S256x1024 .f32 := iblk m c 1 t
abbrev cblk (c : Dev nD) (t : Fin cfg0.N) : FVec Ideal S256x1024 .f32 := iblk m c 2 t
abbrev wxblk (c : Dev nD) (t : Fin cfg0.N) : FVec Ideal S4096x1024 .bf16 := iblk m c 3 t
abbrev bxblk (c : Dev nD) (t : Fin cfg0.N) : FVec Ideal S1x4096 .f32 := iblk m c 4 t
abbrev rhblk (c : Dev nD) (t : Fin cfg0.N) : FVec Ideal S4096x1024 .bf16 := iblk m c 5 t
abbrev bhblk (c : Dev nD) (t : Fin cfg0.N) : FVec Ideal S1x4096 .f32 := iblk m c 6 t

theorem xblk_apply (c : Dev nD) (t : Fin cfg0.N) (p : Fin 256) (i : Fin 1024) :
    xblk m c t (ix2 p i) = argX m c (ix2 (rowOf t p) i) := by
  show V m c main_arg0 (((cfg0.win 0).blk t).view.emb (ix2 p i)) = _
  rw [V_main_arg0]
  refine congrArg (argX m c) (funext fun a => Fin.ext ?_)
  obtain ⟨e0, e1, -⟩ := idx_facts t
  match a with
  | ⟨0, _⟩ => show win0_0.index t (0 : Fin 2) * 256 + 1 * p.val = t.val * 256 + p.val; omega
  | ⟨1, _⟩ => show win0_0.index t (1 : Fin 2) * 1024 + 1 * i.val = i.val; omega

theorem hblk_apply (c : Dev nD) (t : Fin cfg0.N) (p : Fin 256) (i : Fin 1024) :
    hblk m c t (ix2 p i) = argH m c (ix2 (rowOf t p) i) := by
  show V m c main_arg1 (((cfg0.win 1).blk t).view.emb (ix2 p i)) = _
  rw [V_main_arg1]
  refine congrArg (argH m c) (funext fun a => Fin.ext ?_)
  obtain ⟨-, -, e0, e1, -⟩ := idx_facts t
  match a with
  | ⟨0, _⟩ => show win0_1.index t (0 : Fin 2) * 256 + 1 * p.val = t.val * 256 + p.val; omega
  | ⟨1, _⟩ => show win0_1.index t (1 : Fin 2) * 1024 + 1 * i.val = i.val; omega

theorem cblk_apply (c : Dev nD) (t : Fin cfg0.N) (p : Fin 256) (q : Fin 1024) :
    cblk m c t (ix2 p q) = argC m c (ix2 (rowOf t p) q) := by
  show V m c main_arg2 (((cfg0.win 2).blk t).view.emb (ix2 p q)) = _
  rw [V_main_arg2]
  refine congrArg (argC m c) (funext fun a => Fin.ext ?_)
  obtain ⟨-, -, -, -, e0, e1, -⟩ := idx_facts t
  match a with
  | ⟨0, _⟩ => show win0_2.index t (0 : Fin 2) * 256 + 1 * p.val = t.val * 256 + p.val; omega
  | ⟨1, _⟩ => show win0_2.index t (1 : Fin 2) * 1024 + 1 * q.val = q.val; omega

theorem wxblk_apply (c : Dev nD) (t : Fin cfg0.N) (g : Fin 4) (k i : Fin 1024) :
    wxblk m c t (ix2 (col g k) i) = argWx m c (ix3 g k i) := by
  show (V m c main_v1 : S4096x1024.Idx → EReal) (((cfg0.win 3).blk t).view.emb (ix2 (col g k) i)) = _
  have e : ((cfg0.win 3).blk t).view.emb (ix2 (col g k) i) = ix2 (col g k) i := funext fun a => Fin.ext (by
    obtain ⟨-, -, -, -, -, -, e0, e1, -⟩ := idx_facts t
    match a with
    | ⟨0, _⟩ => show win0_3.index t (0 : Fin 2) * 4096 + 1 * (col g k).val = (col g k).val; omega
    | ⟨1, _⟩ => show win0_3.index t (1 : Fin 2) * 1024 + 1 * i.val = i.val; omega)
  rw [e]; exact wx_apply m c g k i

theorem rhblk_apply (c : Dev nD) (t : Fin cfg0.N) (g : Fin 4) (k i : Fin 1024) :
    rhblk m c t (ix2 (col g k) i) = argRh m c (ix3 g k i) := by
  show (V m c main_v3 : S4096x1024.Idx → EReal) (((cfg0.win 5).blk t).view.emb (ix2 (col g k) i)) = _
  have e : ((cfg0.win 5).blk t).view.emb (ix2 (col g k) i) = ix2 (col g k) i := funext fun a => Fin.ext (by
    obtain ⟨-, -, -, -, -, -, -, -, -, -, e0, e1, -⟩ := idx_facts t
    match a with
    | ⟨0, _⟩ => show win0_5.index t (0 : Fin 2) * 4096 + 1 * (col g k).val = (col g k).val; omega
    | ⟨1, _⟩ => show win0_5.index t (1 : Fin 2) * 1024 + 1 * i.val = i.val; omega)
  rw [e]; exact rh_apply m c g k i

theorem bxblk_apply (c : Dev nD) (t : Fin cfg0.N) (g : Fin 4) (k : Fin 1024) :
    bxblk m c t (ix2 (0 : Fin 1) (col g k)) = argBx m c (ix2 g k) := by
  show (V m c main_v4 : S1x4096.Idx → EReal) (((cfg0.win 4).blk t).view.emb (ix2 (0 : Fin 1) (col g k))) = _
  have e : ((cfg0.win 4).blk t).view.emb (ix2 (0 : Fin 1) (col g k)) = ix2 (0 : Fin 1) (col g k) := funext fun a => Fin.ext (by
    obtain ⟨-, -, -, -, -, -, -, -, e0, e1, -⟩ := idx_facts t
    match a with
    | ⟨0, _⟩ => show win0_4.index t (0 : Fin 2) * 1 + 1 * 0 = 0; omega
    | ⟨1, _⟩ => show win0_4.index t (1 : Fin 2) * 4096 + 1 * (col g k).val = (col g k).val; omega)
  rw [e]; exact bx_apply m c g k

theorem bhblk_apply (c : Dev nD) (t : Fin cfg0.N) (g : Fin 4) (k : Fin 1024) :
    bhblk m c t (ix2 (0 : Fin 1) (col g k)) = argBh m c (ix2 g k) := by
  show (V m c main_v5 : S1x4096.Idx → EReal) (((cfg0.win 6).blk t).view.emb (ix2 (0 : Fin 1) (col g k))) = _
  have e : ((cfg0.win 6).blk t).view.emb (ix2 (0 : Fin 1) (col g k)) = ix2 (0 : Fin 1) (col g k) := funext fun a => Fin.ext (by
    obtain ⟨-, -, -, -, -, -, -, -, -, -, -, -, e0, e1, -⟩ := idx_facts t
    match a with
    | ⟨0, _⟩ => show win0_6.index t (0 : Fin 2) * 1 + 1 * 0 = 0; omega
    | ⟨1, _⟩ => show win0_6.index t (1 : Fin 2) * 4096 + 1 * (col g k).val = (col g k).val; omega)
  rw [e]; exact bh_apply m c g k

/-! ## What the body leaves, as the generated index-by-index function of the blocks -/

theorem hz : (![0, 0] : Fin 2 → Nat) = fun _ => 0 := funext fun a => by fin_cases a <;> rfl

theorem out_cell (X0 X1 X2 : FVec Ideal S256x1024 .f32) (X3 : FVec Ideal S4096x1024 .bf16) (X4 : FVec Ideal S1x4096 .f32)
    (X5 : FVec Ideal S4096x1024 .bf16) (X6 : FVec Ideal S1x4096 .f32) (y : S256x1024.Idx) :
    out0_8 (F := Ideal) X0 X1 X2 X3 X4 X5 X6 y = Cert.KernelIdeal.Value.E8 (F := Ideal) X0 X1 X3 X5 X4 X6 X2 y := by
  unfold out0_8
  simp only [View.ld_unit_zero (S := S256x1024) hz, View.ld_unit_zero (S := S4096x1024) hz, View.ld_unit_zero (S := S1x4096) hz]
  rw [Cert.KernelIdeal.Value.canon8_eq]

theorem out_hidden (X0 X1 X2 : FVec Ideal S256x1024 .f32) (X3 : FVec Ideal S4096x1024 .bf16) (X4 : FVec Ideal S1x4096 .f32)
    (X5 : FVec Ideal S4096x1024 .bf16) (X6 : FVec Ideal S1x4096 .f32) (y : S256x1024.Idx) :
    out0_7 (F := Ideal) X0 X1 X2 X3 X4 X5 X6 y = Cert.KernelIdeal.Value.E7 (F := Ideal) X0 X1 X3 X5 X4 X6 X2 y := by
  unfold out0_7
  simp only [View.ld_unit_zero (S := S256x1024) hz, View.ld_unit_zero (S := S4096x1024) hz, View.ld_unit_zero (S := S1x4096) hz]
  rw [Cert.KernelIdeal.Value.canon7_eq]

/-! ## What a point writes back is its block of the whole result -/

theorem emb_cell (t : Fin cfg0.N) (p : Fin 256) (q : Fin 1024) :
    ((cfg0.win 8).blk t).view.emb (ix2 p q) = ix2 (rowOf t p) q := funext fun a => Fin.ext (by
  obtain ⟨-, -, -, -, -, -, -, -, -, -, -, -, -, -, -, -, e0, e1⟩ := idx_facts t
  match a with
  | ⟨0, _⟩ => show win0_8.index t (0 : Fin 2) * 256 + 1 * p.val = t.val * 256 + p.val; omega
  | ⟨1, _⟩ => show win0_8.index t (1 : Fin 2) * 1024 + 1 * q.val = q.val; omega)

theorem emb_hidden (t : Fin cfg0.N) (p : Fin 256) (q : Fin 1024) :
    ((cfg0.win 7).blk t).view.emb (ix2 p q) = ix2 (rowOf t p) q := funext fun a => Fin.ext (by
  obtain ⟨-, -, -, -, -, -, -, -, -, -, -, -, -, -, e0, e1, -⟩ := idx_facts t
  match a with
  | ⟨0, _⟩ => show win0_7.index t (0 : Fin 2) * 256 + 1 * p.val = t.val * 256 + p.val; omega
  | ⟨1, _⟩ => show win0_7.index t (1 : Fin 2) * 1024 + 1 * q.val = q.val; omega)

theorem flushed_cell (c : Dev nD) (t : Fin cfg0.N) :
    (dats m 0 c).flushed 8 t = ((cfg0.win 8).blk t).view.read (Elt Ideal) (cellG m c) := by
  rw [Cert.KernelIdeal.Value.flushed8]
  funext y
  obtain ⟨p, q, rfl⟩ : ∃ (p : Fin 256) (q : Fin 1024), y = ix2 p q := ⟨y 0, y 1, eq_ix2 y⟩
  show out0_8 (F := Ideal) (xblk m c t) (hblk m c t) (cblk m c t) (wxblk m c t) (bxblk m c t) (rhblk m c t) (bhblk m c t) (ix2 p q)
    = cellG m c (((cfg0.win 8).blk t).view.emb (ix2 p q))
  rw [out_cell, emb_cell,
    cell_tile (xblk m c t) (hblk m c t) (cblk m c t) (wxblk m c t) (rhblk m c t) (bxblk m c t) (bhblk m c t)
      (argX m c) (argH m c) (argC m c) (argWx m c) (argRh m c) (argBx m c) (argBh m c) (rowOf t)
      (xblk_apply m c t) (hblk_apply m c t) (cblk_apply m c t) (wxblk_apply m c t) (rhblk_apply m c t)
      (bxblk_apply m c t) (bhblk_apply m c t) p q]
  rfl

theorem flushed_hidden (c : Dev nD) (t : Fin cfg0.N) :
    (dats m 0 c).flushed 7 t = ((cfg0.win 7).blk t).view.read (Elt Ideal) (hiddenG m c) := by
  rw [Cert.KernelIdeal.Value.flushed7]
  funext y
  obtain ⟨p, q, rfl⟩ : ∃ (p : Fin 256) (q : Fin 1024), y = ix2 p q := ⟨y 0, y 1, eq_ix2 y⟩
  show out0_7 (F := Ideal) (xblk m c t) (hblk m c t) (cblk m c t) (wxblk m c t) (bxblk m c t) (rhblk m c t) (bhblk m c t) (ix2 p q)
    = hiddenG m c (((cfg0.win 7).blk t).view.emb (ix2 p q))
  rw [out_hidden, emb_hidden,
    hidden_tile (xblk m c t) (hblk m c t) (cblk m c t) (wxblk m c t) (rhblk m c t) (bxblk m c t) (bhblk m c t)
      (argX m c) (argH m c) (argC m c) (argWx m c) (argRh m c) (argBx m c) (argBh m c) (rowOf t)
      (xblk_apply m c t) (hblk_apply m c t) (cblk_apply m c t) (wxblk_apply m c t) (rhblk_apply m c t)
      (bxblk_apply m c t) (bhblk_apply m c t) p q]
  rfl

/-! ## The 64 blocks cover the results -/

theorem mem_blk_cell (t : Fin cfg0.N) (i : S16384x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v6_1).slice (win0_8.rect t)).set ↔ _
  rw [View.set_slice_whole, Rect.mem_set_unit]
  exact Iff.rfl

theorem mem_blk_hidden (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v6_0).slice (win0_7.rect t)).set ↔ _
  rw [View.set_slice_whole, Rect.mem_set_unit]
  exact Iff.rfl

/-- The point whose block holds row b. -/
def pointOf (i : S16384x1024.Idx) : Fin cfg0.N :=
  ⟨(i 0).val / 256, lt_of_lt_of_eq (by have : (i 0).val < 16384 := (i 0).isLt; omega : (i 0).val / 256 < 64) N_0.symm⟩

theorem cover_cell (i : S16384x1024.Idx) :
    ∃ t : Fin cfg0.N, (cfg0.win 8).flush t = true ∧ i ∈ ((cfg0.win 8).blk t).view.set := by
  have hi0 : (i 0).val < 16384 := (i 0).isLt
  have hi1 : (i 1).val < 1024 := (i 1).isLt
  refine ⟨pointOf i, flush0_8 _, ?_⟩
  rw [mem_blk_cell]
  obtain ⟨-, -, -, -, -, -, -, -, -, -, -, -, -, -, -, -, e0, e1⟩ := idx_facts (pointOf i)
  have ht : (pointOf i).val = (i 0).val / 256 := rfl
  intro a
  match a with
  | ⟨0, _⟩ => show win0_8.index (pointOf i) (0 : Fin 2) * 256 ≤ (i 0).val ∧ (i 0).val < win0_8.index (pointOf i) (0 : Fin 2) * 256 + 256; omega
  | ⟨1, _⟩ => show win0_8.index (pointOf i) (1 : Fin 2) * 1024 ≤ (i 1).val ∧ (i 1).val < win0_8.index (pointOf i) (1 : Fin 2) * 1024 + 1024; omega

theorem cover_hidden (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  refine ⟨pointOf i, flush0_7 _, ?_⟩
  rw [mem_blk_hidden]
  obtain ⟨-, -, -, -, -, -, -, -, -, -, -, -, -, -, e0, e1, -⟩ := idx_facts (pointOf i)
  have ht : (pointOf i).val = (i 0).val / 256 := rfl
  intro a
  match a with
  | ⟨0, _⟩ => show win0_7.index (pointOf i) (0 : Fin 2) * 256 ≤ (i 0).val ∧ (i 0).val < win0_7.index (pointOf i) (0 : Fin 2) * 256 + 256; omega
  | ⟨1, _⟩ => show win0_7.index (pointOf i) (1 : Fin 2) * 1024 ≤ (i 1).val ∧ (i 1).val < win0_7.index (pointOf i) (1 : Fin 2) * 1024 + 1024; omega

/-! ## The results after the run -/

theorem final_cell (c : Dev nD) : (dats m 0 c).arrAt 8 cfg0.N = cellG m c :=
  (dats m 0 c).arrAt_eq_of_cover 8 (cellG m c) (fun t _ => flushed_cell m c t) cover_cell

theorem final_hidden (c : Dev nD) : (dats m 0 c).arrAt 7 cfg0.N = hiddenG m c :=
  (dats m 0 c).arrAt_eq_of_cover 7 (hiddenG m c) (fun t _ => flushed_hidden m c t) cover_hidden

/-- Every run of the tiled program ends with the new hidden state and the new cell state of the arguments in its two
    results, and the arguments as they were. -/
theorem run : θ_run defs (onTc (τ := τ) (main (F := Ideal))) ⟨m, fun _ => 0, ρ⟩ fun r => ∀ c : Dev nD,
      r.2.mem ((c : Thread nD τ).loc main_v6_0) = hiddenG m c
      ∧ r.2.mem ((c : Thread nD τ).loc main_v6_1) = cellG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hidden m c), (h c).2.1.trans (final_cell m c), (h c).2.2⟩)
    (Cert.KernelIdeal.Value.run_blocks m ρ)

end Cert.CellStep.Tiled

end
-- ==== Proof.lean ====
/-
  The tiled program and the plain program compute one step of a long short-term memory cell, and they agree.

  Both take a batch of 16384 rows `x`, `h`, `c` of 1024 features, input and recurrent weights (gate × feature × feature)
  and two biases (gate × feature). For row b, gate g and feature k the pre-activation is
      pre b g k = Σᵢ x[b,i]·Wx[g,k,i] + Σⱼ h[b,j]·Rh[g,k,j] + bx[g,k] + bh[g,k],
  the new cell state is  c'[b,k] = σ(pre b 2 k)·c[b,k] + σ(pre b 1 k)·tanh(pre b 0 k)  and the new hidden state
  h'[b,k] = σ(pre b 3 k)·tanh(c'[b,k]),  with σ(t) = 1 / (1 + e^{-t})  (`Proof/CellStep.lean`).

  The plain program forms all pre-activations at once, adding the input bias between the two products, takes each gate as
  a slice, and spells σ as 1 / (1 + e^{-t}) (`Proof/PlainCell.lean`). The tiled program flattens the weights to 4096 rows
  and the biases to one row, and on each tile of 256 rows forms both products against every weight row, then adds both
  bias rows; the gates are the four column bands, and σ is one operation (`Proof/TileCell.lean`); its 64 tiles cover the
  results (`Proof/TiledCell.lean`). Over the extended reals narrowing to bf16 is the identity, a product accumulated into
  zeros is the textbook sum, and addition is commutative and associative, which is all that separates the two orders of
  adding the four summands of `pre`. So both programs leave `hiddenArr` and `cellArr` of the arguments in their results.
  No finiteness of the inputs is used. Each program's run also leaves its arguments as they were: the tiled programs'
  by their generated frames, the plain program's by its generated run. Nothing was rewritten on the way from the tiled
  program to its idealization, so that claim is trivial.
-/
import proofs.«164644_j46420006535299_1_alg».proof.Defs
import proofs.«164644_j46420006535299_1_alg».proof.Proof.Gen.Kernel
import proofs.«164644_j46420006535299_1_alg».proof.Proof.Gen.Kernel.Skeleton
import proofs.«164644_j46420006535299_1_alg».proof.Proof.Gen.Kernel.Launch
import proofs.«164644_j46420006535299_1_alg».proof.Proof.Gen.Kernel.Points
import proofs.«164644_j46420006535299_1_alg».proof.Proof.Gen.Kernel.Frame
import proofs.«164644_j46420006535299_1_alg».proof.Proof.Gen.KernelIdeal
import proofs.«164644_j46420006535299_1_alg».proof.Proof.Gen.KernelIdeal.Skeleton
import proofs.«164644_j46420006535299_1_alg».proof.Proof.Gen.KernelIdeal.Launch
import proofs.«164644_j46420006535299_1_alg».proof.Proof.Gen.KernelIdeal.Points
import proofs.«164644_j46420006535299_1_alg».proof.Proof.Gen.KernelIdeal.Frame
import proofs.«164644_j46420006535299_1_alg».proof.Proof.Gen.ReferenceIdeal
import proofs.«164644_j46420006535299_1_alg».proof.Proof.Gen.Pre_finite_inputs
import proofs.«164644_j46420006535299_1_alg».proof.Proof.Gen.KernelIdeal.Value
import proofs.«164644_j46420006535299_1_alg».proof.Proof.Gen.ReferenceIdeal.Run
import proofs.«164644_j46420006535299_1_alg».proof.Proof.Gen.ReferenceIdeal.Read
import proofs.«164644_j46420006535299_1_alg».proof.Proof.PlainCell
import proofs.«164644_j46420006535299_1_alg».proof.Proof.TiledCell
import Idealize.ShloMosaic.Adequacy
import Idealize.ShloMosaic.Init

noncomputable section

namespace Cert.Proof

open Idealize.ShloMosaic Idealize.ShloMosaic.TcCoe Idealize.SL.Sem Cert.Kernel

theorem frame_tiled : Cert.frame_Kernel := fun m ρ _ => Cert.Kernel.Gen.frame m ρ

theorem frame_tiled_ideal : Cert.frame_KernelIdeal := fun m ρ _ => Cert.KernelIdeal.Gen.frame m ρ

/-- The plain program's run names both results and keeps the arguments; the frame keeps only the latter. -/
theorem frame_plain : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Run from memories that agree on the seven arguments, the tiled program ends with `hiddenArr` and `cellArr` of them
    in its results (`Tiled.run`), and so does the plain program: its first result is `hiddenArr` and its second `cellArr`
    of its own arguments (`Plain.hidden_eq`, `Plain.cell_eq`), which are the same arrays. -/
theorem algebraic : Cert.algebraic_KernelIdeal_ReferenceIdeal := by
  intro m ρ m' ρ' _ hagree
  refine ⟨fun c => Cert.CellStep.Tiled.hiddenG m c, fun c => Cert.CellStep.Tiled.cellG m c, Cert.CellStep.Tiled.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨?_, ?_, (h c).2.2⟩
  · rw [(h c).1, Cert.ReferenceIdeal.Read.val_main_v40_eq, Cert.CellStep.Plain.hidden_eq, a0, a1, a2, a3, a4, a5, a6]
    rfl
  · rw [(h c).2.1, Cert.ReferenceIdeal.Read.val_main_v38_eq, Cert.CellStep.Plain.cell_eq, a0, a1, a2, a3, a4, a5, a6]
    rfl

theorem claim : Cert.Claim := ⟨Cert.Kernel.Gen.facts, Cert.KernelIdeal.Gen.facts, Cert.ReferenceIdeal.Gen.facts, Cert.Pre_finite_inputs.Gen.facts,
  frame_tiled, frame_tiled_ideal, frame_plain, preserves, algebraic⟩

end Cert.Proof

end
